-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg1 : IVec S1600000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 4294917296#32
  let main_v29 : IVec S1600000 32 := broadcastInDim S1600000 ![] bcast_S_S1600000 main_c_10
  let main_v30 : IVec S1600000 1 := cmpi .sge main_arg1 main_v29
  let main_c_11 : IVec S_ 32 := constantI S_ 32 50000#32
  let main_v31 : IVec S1600000 32 := broadcastInDim S1600000 ![] bcast_S_S1600000 main_c_11
  let main_v32 : IVec S1600000 1 := cmpi .slt main_arg1 main_v31
  let main_v33 : IVec S1600000 1 := andi main_v30 main_v32
  fn_part2 (F := F) main_v28 main_v33

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 73
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1, .i32⟩
  | .hbm, ⟨50, _⟩ => ⟨S_, .i32⟩
  | .hbm, ⟨51, _⟩ => ⟨S1600000x1, .i32⟩
  | .hbm, ⟨52, _⟩ => ⟨S1600000x1, .i1⟩
  | .hbm, ⟨53, _⟩ => ⟨S1x1, .i32⟩
  | .hbm, ⟨54, _⟩ => ⟨S1600000x1, .i32⟩
  | .hbm, ⟨55, _⟩ => ⟨S1600000x1, .i1⟩
  | .hbm, ⟨56, _⟩ => ⟨S1600000x1, .i1⟩
  | .hbm, ⟨57, _⟩ => ⟨S_, .i1⟩
  | .hbm, ⟨58, _⟩ => ⟨S1600000, .i1⟩
  | .hbm, ⟨59, _⟩ => ⟨S1600000x128, .f32⟩
  | .hbm, ⟨60, _⟩ => ⟨S1600000x128, .i1⟩
  | .hbm, ⟨61, _⟩ => ⟨S_, .f32⟩
  | .hbm, ⟨62, _⟩ => ⟨S1600000x128, .f32⟩
  | .hbm, ⟨63, _⟩ => ⟨S1600000x128, .f32⟩
  | .hbm, ⟨64, _⟩ => ⟨S1600000x1, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S50000x128, .f32⟩
  | .hbm, ⟨69, _⟩ => ⟨S1600000x1, .i32⟩
  | .hbm, ⟨70, _⟩ => ⟨S50000x128, .f32⟩
  | .hbm, ⟨71, _⟩ => ⟨S1x128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S50000x128, .f32⟩
  | .hbm, ⟨23, _⟩ => ⟨S1600000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Spec.lean ====
/-
  The mathematics of a two-layer graph convolution, entry by entry, over the extended reals.
  A node table has 50000 rows of 128 features. A dense projection multiplies a table by a 128 x 128 weight matrix:
  entry (n, j) is the sum over k of table (n, k) times weight (k, j). The hidden layer adds a bias row to a table,
  clamps every entry below at zero and projects the result; the output layer only adds a bias row.
  Nothing here names a program: the two programs are each shown to compute these functions.
-/
import Idealize.ShloMosaic.PureOps.Ideal
import Idealize.ShloMosaic.Lib.ValueIdx

noncomputable section

namespace Cert.Gcn

open Idealize.ShloMosaic Idealize.ShloMosaic.ValueIdx

/-- A node table: 50000 rows of 128 features. -/
abbrev Nodes : Shape := ⟨2, ![50000, 128]⟩
/-- A weight matrix. -/
abbrev Weights : Shape := ⟨2, ![128, 128]⟩
/-- A bias kept as one row. -/
abbrev BiasRow : Shape := ⟨2, ![1, 128]⟩

/-- The dense projection: entry (n, j) is the sum over k of `x (n, k) * w (k, j)`. -/
def proj (x : Nodes.Idx → EReal) (w : Weights.Idx → EReal) : Nodes.Idx → EReal :=
  fun i => ∑ k : Fin 128, x (ix2 (i 0) k) * w (ix2 k (i 1))

/-- A table with a bias row added to every row and every entry clamped below at zero. -/
def biasRelu (a : Nodes.Idx → EReal) (b : BiasRow.Idx → EReal) : Nodes.Idx → EReal :=
  fun i => max (a i + b (ix2 (0 : Fin 1) (i 1))) 0

/-- The hidden layer's projection: the clamped biased table times the weights. -/
def hidden (a : Nodes.Idx → EReal) (b : BiasRow.Idx → EReal) (w : Weights.Idx → EReal) : Nodes.Idx → EReal :=
  proj (biasRelu a b) w

/-- A table with a bias row added to every row. -/
def addBias (a : Nodes.Idx → EReal) (b : BiasRow.Idx → EReal) : Nodes.Idx → EReal :=
  fun i => a i + b (ix2 (0 : Fin 1) (i 1))

end Cert.Gcn

end
-- ==== Proof.BlockPay.lean ====
/-
  What each kernel body stores, read at one entry of its 5000-row block. The projection body multiplies the block by the
  weight matrix (the narrowing of both operands before the product is the identity on the extended reals, and the
  product accumulates into zero): entry (p, q) is the sum over k of block (p, k) times weight (k, q). The hidden-layer
  body first adds the bias row and clamps at zero; the output body only adds the bias row.
-/
import proofs.«401374_j40312563040379_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockPay

open Cert.KernelIdeal Cert.KernelIdeal.Gen Idealize.ShloMosaic Idealize.ShloMosaic.ValueIdx

/-! ## The product's operand indices, one axis at a time -/

/-- The left operand's row is the output's row. -/
theorem lhs_dot_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction index. -/
theorem lhs_dot_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

/-- The right operand's row is the contraction index. -/
theorem rhs_dot_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

/-- The right operand's column is the output's column. -/
theorem rhs_dot_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 x 128 block with a 128 x 128 matrix, accumulated into zero, at entry (p, q): the sum over the
    128 contracted positions of the block's row p against the matrix's column q. -/
theorem dot_zero_apply {φ₁ φ₂ : FTy} (a : FVec Ideal S5000x128 φ₁) (c : FVec Ideal S128x128 φ₂) (p : Fin 5000) (q : Fin 128) :
    matmul (F := Ideal) dot_S5000x128_S128x128_S5000x128_1_0_0_1_n_n none a c (constant (F := Ideal) S5000x128 .f32 0x00000000#32) (ix2 p q)
      = ∑ k : Fin 128, a (ix2 p k) * c (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun d => Fin.ext (by
    match d with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun d => Fin.ext (by
    match d with
    | ⟨0, _⟩ => exact (rhs_dot_0 _ _).trans hk
    | ⟨1, _⟩ => exact rhs_dot_1 _ _)
  rw [el, er]

/-- The bias row laid along every row of the block, at entry (p, q): the bias of column q. -/
theorem bias_row_apply (b : Vec Ideal S1x128 .f32) (h : S1x128.Broadcasts S5000x128) (p : Fin 5000) (q : Fin 128) :
    broadcastTo S5000x128 b h (ix2 p q) = b (ix2 (0 : Fin 1) q) :=
  broadcastTo_apply b h (ix2 p q) (ix2 (0 : Fin 1) q) (by
    intro d
    match d with
    | ⟨0, _⟩ => rfl
    | ⟨1, _⟩ => rfl)

/-- The projection body at entry (p, q): row p of the block against column q of the weights. -/
theorem proj_pay (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact (dot_zero_apply _ _ p q).trans (Finset.sum_congr rfl fun k _ => by rw [truncf_apply, truncf_apply])

/-- The hidden-layer body at entry (p, q): row p of the block, biased and clamped at zero, against column q of the weights. -/
theorem hidden_pay (x : Vec Ideal S5000x128 .f32) (b : Vec Ideal S1x128 .f32) (w : Vec Ideal S128x128 .f32) (p : Fin 5000) (q : Fin 128) :
    k1_pay1 (F := Ideal) x b w (ix2 p q) = ∑ k : Fin 128, max (x (ix2 p k) + b (ix2 (0 : Fin 1) k)) 0 * w (ix2 k q) := by
  unfold k1_pay1
  refine (dot_zero_apply _ _ p q).trans (Finset.sum_congr rfl fun k _ => ?_)
  rw [truncf_apply, truncf_apply, maximumf_apply, addf_apply, broadcast_apply, shapeCast_self, shapeCast_self, bias_row_apply]
  show max (x (ix2 p k) + b (ix2 (0 : Fin 1) k)) (Ideal.ofBits .f32 0x00000000#32) * w (ix2 k q) = _
  rw [Ideal.ofBits_zero_f32]

/-- The output body at entry (p, q): the block's entry plus the bias of column q. -/
theorem bias_pay (x : Vec Ideal S5000x128 .f32) (b : Vec Ideal S1x128 .f32) (p : Fin 5000) (q : Fin 128) :
    k2_pay1 (F := Ideal) x b (ix2 p q) = x (ix2 p q) + b (ix2 (0 : Fin 1) q) := by
  unfold k2_pay1
  rw [addf_apply, shapeCast_self, shapeCast_self, bias_row_apply]

end Cert.KernelIdeal.BlockPay

end
-- ==== Proof.Region0.lean ====
/-
  The first pallas region: the node features times the first weight matrix, 5000 rows of the table at each of ten grid
  points. Point t reads rows 5000 t .. 5000 t + 4999 of the features and the whole weight matrix and writes the same rows
  of the result, so the ten write-backs tile the result and it ends holding the dense projection of the whole table.
-/
import proofs.«401374_j40312563040379_2_alg».proof.Proof.Gen.KernelIdeal.Frame
import proofs.«401374_j40312563040379_2_alg».proof.Proof.Spec
import proofs.«401374_j40312563040379_2_alg».proof.Proof.BlockPay
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

-- the TensorCore's buffer contents when the region is entered
variable (V : (c : Dev nD) → (b : Ref sig .tc) → Buf (Elt Ideal) ((c : Thread nD τ).loc b))

/-- The offset of every store and load inside a block: the block's origin. -/
theorem origin : (![0, 0] : Fin 2 → Nat) = fun _ => 0 := funext fun a => by fin_cases a <;> rfl

/-- The index maps over the ten grid points: the feature window and the result window sit at block (t, 0), the weight
    window at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of point t is row 5000 t + p of the table. -/
def row (t : Fin cfg0.N) (p : Fin 5000) : Fin 50000 :=
  ⟨t.val * 5000 + p.val, by have h : t.val < 10 := N_0 ▸ t.isLt; have := p.isLt; omega⟩

/-- Entry (p, q) of the result block of point t is entry (5000 t + p, q) of the result. -/
theorem result_entry (t : Fin cfg0.N) (p : Fin 5000) (q : Fin 128) :
    ((cfg0.win 2).blk t).view.emb (ix2 p q) = ix2 (row t p) q := by
  obtain ⟨-, -, -, -, e0, e1⟩ := block_index t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- The feature block of point t at (p, k) is the feature table at (5000 t + p, k). -/
theorem feature_block (c : Dev nD) (t : Fin cfg0.N) (p : Fin 5000) (k : Fin 128) :
    iblk0 V c 0 t (ix2 p k) = V c main_arg0 (ix2 (row t p) k) := by
  obtain ⟨e0, e1, -, -, -, -⟩ := block_index t
  show V c main_arg0 (((cfg0.win 0).blk t).view.emb (ix2 p k)) = _
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block of every point is the whole weight matrix. -/
theorem weight_block (c : Dev nD) (t : Fin cfg0.N) (k : Fin 128) (q : Fin 128) :
    iblk0 V c 1 t (ix2 k q) = V c main_arg4 (ix2 k q) := by
  obtain ⟨-, -, e0, e1, -, -⟩ := block_index t
  show V c main_arg4 (((cfg0.win 1).blk t).view.emb (ix2 k q)) = _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the projection of the whole table: entry (p, q) of the written block is
    row p of the feature block against column q of the weights, and row p of the feature block is row 5000 t + p of
    the table. -/
theorem flushed_eq (c : Dev nD) (t : Fin cfg0.N) :
    (dat0 V c).flushed 2 t = ((cfg0.win 2).blk t).view.read (Elt Ideal) (Cert.Gcn.proj (V c main_arg0) (V c main_arg4)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.proj (V c main_arg0) (V c main_arg4) (((cfg0.win 2).blk t).view.emb (ix2 p q))
  rw [BlockPay.proj_pay, result_entry]
  unfold Cert.Gcn.proj
  exact Finset.sum_congr rfl fun k _ => by rw [feature_block, weight_block]

/-- An index of the result is in the block of point t iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten blocks tile the result: row r lies in the block of point r / 5000, and every point writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show _ < grid0.N; rw [N_0]; omega⟩
  obtain ⟨-, -, -, -, e0, e1⟩ := block_index t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array holds the projection of the feature table as the region found it. -/
theorem final (c : Dev nD) : (dat0 V c).arrAt 2 cfg0.N = Cert.Gcn.proj (V c main_arg0) (V c main_arg4) :=
  (dat0 V c).arrAt_eq_of_cover 2 (Cert.Gcn.proj (V c main_arg0) (V c main_arg4)) (fun t _ => flushed_eq V c t) cover

end Cert.KernelIdeal.Region0

end
-- ==== Proof.Region1.lean ====
/-
  The second pallas region: the aggregated table, biased and clamped at zero, times the second weight matrix, 5000 rows
  at each of ten grid points. Point t reads rows 5000 t .. 5000 t + 4999 of the table, the bias row and the whole weight
  matrix and writes the same rows of the result: the ten write-backs tile the result.
-/
import proofs.«401374_j40312563040379_2_alg».proof.Proof.Gen.KernelIdeal.Frame
import proofs.«401374_j40312563040379_2_alg».proof.Proof.Spec
import proofs.«401374_j40312563040379_2_alg».proof.Proof.BlockPay
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

-- the TensorCore's buffer contents when the region is entered
variable (V : (c : Dev nD) → (b : Ref sig .tc) → Buf (Elt Ideal) ((c : Thread nD τ).loc b))

/-- The offset of every store and load inside a block: the block's origin. -/
theorem origin : (![0, 0] : Fin 2 → Nat) = fun _ => 0 := funext fun a => by fin_cases a <;> rfl

/-- The index maps over the ten grid points: the table window and the result window sit at block (t, 0), the bias
    window and the weight window at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the block of point t is row 5000 t + p of the table. -/
def row (t : Fin cfg1.N) (p : Fin 5000) : Fin 50000 :=
  ⟨t.val * 5000 + p.val, by have h : t.val < 10 := N_1 ▸ t.isLt; have := p.isLt; omega⟩

/-- Entry (p, q) of the result block of point t is entry (5000 t + p, q) of the result. -/
theorem result_entry (t : Fin cfg1.N) (p : Fin 5000) (q : Fin 128) :
    ((cfg1.win 3).blk t).view.emb (ix2 p q) = ix2 (row t p) q := by
  obtain ⟨-, -, -, -, -, -, e0, e1⟩ := block_index t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- The table block of point t at (p, k) is the table at (5000 t + p, k). -/
theorem table_block (c : Dev nD) (t : Fin cfg1.N) (p : Fin 5000) (k : Fin 128) :
    iblk1 V c 0 t (ix2 p k) = V c main_v7 (ix2 (row t p) k) := by
  obtain ⟨e0, e1, -, -, -, -, -, -⟩ := block_index t
  show V c main_v7 (((cfg1.win 0).blk t).view.emb (ix2 p k)) = _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The bias block of every point is the whole bias row. -/
theorem bias_block (c : Dev nD) (t : Fin cfg1.N) (z : Fin 1) (k : Fin 128) :
    iblk1 V c 1 t (ix2 z k) = V c main_v8 (ix2 z k) := by
  obtain ⟨-, -, e0, e1, -, -, -, -⟩ := block_index t
  show V c main_v8 (((cfg1.win 1).blk t).view.emb (ix2 z k)) = _
  congr 1
  funext a; apply Fin.ext
  match a with
  | ⟨0, _⟩ => show win1_1.index t (0 : Fin 2) * 1 + 1 * z.val = z.val; omega
  | ⟨1, _⟩ => show win1_1.index t (1 : Fin 2) * 128 + 1 * k.val = k.val; omega

/-- The weight block of every point is the whole weight matrix. -/
theorem weight_block (c : Dev nD) (t : Fin cfg1.N) (k : Fin 128) (q : Fin 128) :
    iblk1 V c 2 t (ix2 k q) = V c main_arg6 (ix2 k q) := by
  obtain ⟨-, -, -, -, e0, e1, -, -⟩ := block_index t
  show V c main_arg6 (((cfg1.win 2).blk t).view.emb (ix2 k q)) = _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- What point t writes back is block t of the hidden layer's projection of the whole table: entry (p, q) of the
    written block is row p of the table block, biased and clamped at zero, against column q of the weights, and row p
    of the table block is row 5000 t + p of the table. -/
theorem flushed_eq (c : Dev nD) (t : Fin cfg1.N) :
    (dat1 V c).flushed 3 t = ((cfg1.win 3).blk t).view.read (Elt Ideal) (Cert.Gcn.hidden (V c main_v7) (V c main_v8) (V c main_arg6)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x128) origin]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.Gcn.hidden (V c main_v7) (V c main_v8) (V c main_arg6) (((cfg1.win 3).blk t).view.emb (ix2 p q))
  rw [BlockPay.hidden_pay, result_entry]
  unfold Cert.Gcn.hidden Cert.Gcn.proj Cert.Gcn.biasRelu
  exact Finset.sum_congr rfl fun k _ => by rw [table_block, bias_block, weight_block]

/-- An index of the result is in the block of point t iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v9).slice (win1_3.rect t)).set ↔ _
  rw [View.set_slice_whole, Rect.mem_set_unit]
  exact Iff.rfl

/-- The ten blocks tile the result: row r lies in the block of point r / 5000, and every point writes back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show _ < grid1.N; rw [N_1]; omega⟩
  obtain ⟨-, -, -, -, -, -, e0, e1⟩ := block_index t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region the result array holds the hidden layer's projection of the table as the region found it. -/
theorem final (c : Dev nD) : (dat1 V c).arrAt 3 cfg1.N = Cert.Gcn.hidden (V c main_v7) (V c main_v8) (V c main_arg6) :=
  (dat1 V c).arrAt_eq_of_cover 3 (Cert.Gcn.hidden (V c main_v7) (V c main_v8) (V c main_arg6)) (fun t _ => flushed_eq V c t) cover

end Cert.KernelIdeal.Region1

end
-- ==== Proof.Region2.lean ====
/-
  The third pallas region: the second aggregated table plus the bias row, 5000 rows at each of ten grid points. Point t
  reads rows 5000 t .. 5000 t + 4999 of the table and the bias row and writes the same rows of the result: the ten
  write-backs tile the result.
-/
import proofs.«401374_j40312563040379_2_alg».proof.Proof.Gen.KernelIdeal.Frame
import proofs.«401374_j40312563040379_2_alg».proof.Proof.Spec
import proofs.«401374_j40312563040379_2_alg».proof.Proof.BlockPay
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx

-- the TensorCore's buffer contents when the region is entered
variable (V : (c : Dev nD) → (b : Ref sig .tc) → Buf (Elt Ideal) ((c : Thread nD τ).loc b))

/-- The offset of every store and load inside a block: the block's origin. -/
theorem origin : (![0, 0] : Fin 2 → Nat) = fun _ => 0 := funext fun a => by fin_cases a <;> rfl

/-- The index maps over the ten grid points: the table window and the result window sit at block (t, 0), the bias
    window at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the block of point t is row 5000 t + p of the table. -/
def row (t : Fin cfg2.N) (p : Fin 5000) : Fin 50000 :=
  ⟨t.val * 5000 + p.val, by have h : t.val < 10 := N_2 ▸ t.isLt; have := p.isLt; omega⟩

/-- Entry (p, q) of the result block of point t is entry (5000 t + p, q) of the result. -/
theorem result_entry (t : Fin cfg2.N) (p : Fin 5000) (q : Fin 128) :
    ((cfg2.win 2).blk t).view.emb (ix2 p q) = ix2 (row t p) q := by
  obtain ⟨-, -, -, -, e0, e1⟩ := block_index t
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega

/-- The table block of point t at (p, q) is the table at (5000 t + p, q). -/
theorem table_block (c : Dev nD) (t : Fin cfg2.N) (p : Fin 5000) (q : Fin 128) :
    iblk2 V c 0 t (ix2 p q) = V c main_v16 (ix2 (row t p) q) := by
  obtain ⟨e0, e1, -, -, -, -⟩ := block_index t
  show V c main_v16 (((cfg2.win 0).blk t).view.emb (ix2 p q)) = _
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The bias block of every point is the whole bias row. -/
theorem bias_block (c : Dev nD) (t : Fin cfg2.N) (z : Fin 1) (q : Fin 128) :
    iblk2 V c 1 t (ix2 z q) = V c main_v17 (ix2 z q) := by
  obtain ⟨-, -, e0, e1, -, -⟩ := block_index t
  show V c main_v17 (((cfg2.win 1).blk t).view.emb (ix2 z q)) = _
  congr 1
  funext a; apply Fin.ext
  match a with
  | ⟨0, _⟩ => show win2_1.index t (0 : Fin 2) * 1 + 1 * z.val = z.val; omega
  | ⟨1, _⟩ => show win2_1.index t (1 : Fin 2) * 128 + 1 * q.val = q.val; omega

/-- What point t writes back is block t of the whole table with the bias row added: entry (p, q) of the written block
    is entry (p, q) of the table block plus the bias of column q, and row p of the table block is row 5000 t + p of the
    table. -/
theorem flushed_eq (c : Dev nD) (t : Fin cfg2.N) :
    (dat2 V c).flushed 2 t = ((cfg2.win 2).blk t).view.read (Elt Ideal) (Cert.Gcn.addBias (V c main_v16) (V c main_v17)) := by
  show (cfg2.win 2).cut (grid2.coords t) ((dat2 V c).after 2 t) = _
  rw [after2_2]
  unfold out2_2
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Gcn.addBias (V c main_v16) (V c main_v17) (((cfg2.win 2).blk t).view.emb (ix2 p q))
  rw [BlockPay.bias_pay, result_entry]
  unfold Cert.Gcn.addBias
  rw [table_block, bias_block]

/-- An index of the result is in the block of point t iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v18).slice (win2_2.rect t)).set ↔ _
  rw [View.set_slice_whole, Rect.mem_set_unit]
  exact Iff.rfl

/-- The ten blocks tile the result: row r lies in the block of point r / 5000, and every point writes back. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by show _ < grid2.N; rw [N_2]; omega⟩
  obtain ⟨-, -, -, -, e0, e1⟩ := block_index t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array holds the table, as the region found it, with the bias row added. -/
theorem final (c : Dev nD) : (dat2 V c).arrAt 2 cfg2.N = Cert.Gcn.addBias (V c main_v16) (V c main_v17) :=
  (dat2 V c).arrAt_eq_of_cover 2 (Cert.Gcn.addBias (V c main_v16) (V c main_v17)) (fun t _ => flushed_eq V c t) cover

end Cert.KernelIdeal.Region2

end
-- ==== Proof.Aggregate.lean ====
/-
  The sparse aggregation between the dense stages, as one function of a node table, the edges' source and destination
  nodes and the edges' weights. Each edge reads the row of its source node (a negative source index counts from the end
  of the table; an index outside the table, after that, reads a fill value instead of a row), scales the row by the
  edge's weight, and adds it into the row of its destination node of a table that starts at zero.
-/
import proofs.«401374_j40312563040379_2_alg».proof.Proof.Gen.KernelIdeal

noncomputable section

namespace Cert.KernelIdeal.Aggregate

open Cert.KernelIdeal Cert.KernelIdeal.Gen Idealize.ShloMosaic

variable {F : FTy → Type} [FloatOps F]

/-- The source index of each edge, counted from the end of the table when negative. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 50000#32))) src

/-- The same indices as a column, the form the row lookup takes them in. -/
def idxCol (src : IVec S1600000 32) : IVec S1600000x1 32 :=
  broadcastInDim S1600000x1 ![0] bcast_S1600000_S1600000x1_0 (wrapIdx src)

/-- Per edge, whether its (wrapped) source index lies inside the table: at least 0 and at most 49999. -/
def inRange (src : IVec S1600000 32) : IVec S1600000 1 :=
  Host.reduce IntOp.andi
    (andi (cmpi .sge (idxCol src) (broadcastInDim S1600000x1 ![] bcast_S_S1600000x1 (constantI S_ 32 0#32)))
      (cmpi .sle (idxCol src) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- Per edge, the row of the table at its source index. -/
def rows (s : FVec F S50000x128 .f32) (src : IVec S1600000 32) : FVec F S1600000x128 .f32 :=
  Host.gather gather_S50000x128_S1600000x1_S1600000x128_1_0_n_n_0_1_1128 s (idxCol src)

/-- Per edge, the row at its source index where that index is inside the table, the fill value elsewhere. -/
def takeFill (s : FVec F S50000x128 .f32) (src : IVec S1600000 32) : FVec F S1600000x128 .f32 :=
  select (broadcastInDim S1600000x128 ![0] bcast_S1600000_S1600000x128_0 (inRange src)) (rows s src)
    (broadcastInDim S1600000x128 ![] bcast_S_S1600000x128 (constant S_ .f32 0x7FC00000#32))

/-- The edges' rows, each scaled by its edge's weight, added into the destination nodes' rows of a zero table. -/
def scatterRows (dst : IVec S1600000 32) (w : FVec F S1600000 .f32) (r : FVec F S1600000x128 .f32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (mulf r (broadcastInDim S1600000x128 ![0, 1] bcast_S1600000x1_S1600000x128_0_1
      (broadcastInDim S1600000x1 ![0] bcast_S1600000_S1600000x1_0 w)))

/-- The aggregation as the kernel's program spells it: lookup with fill, scale, scatter-add. -/
def aggregate (s : FVec F S50000x128 .f32) (src dst : IVec S1600000 32) (w : FVec F S1600000 .f32) : FVec F S50000x128 .f32 :=
  scatterRows dst w (takeFill s src)

/-- A bias vector laid out as one row, the form the pallas regions take it in. -/
def biasRow (b : FVec F S128 .f32) : FVec F S1x128 .f32 :=
  shapeCast S1x128 b shapeCasts_S128_S1x128

end Cert.KernelIdeal.Aggregate

end
-- ==== Proof.HostRead.lean ====
/-
  What the host operations between the pallas regions leave in the arrays the next region reads, as functions of what the
  region before left. Between regions the program looks up each edge's source row in the table the region before wrote,
  scales it by the edge's weight and adds it into the destination node's row of a zero table (the aggregation), and lays
  the next bias vector out as one row; it writes no argument array.
-/
import proofs.«401374_j40312563040379_2_alg».proof.Proof.Gen.KernelIdeal.Frame
import proofs.«401374_j40312563040379_2_alg».proof.Proof.Aggregate
import Idealize.ShloMosaic.Lib.StableHlo.Run

set_option maxRecDepth 16384

noncomputable section

namespace Cert.KernelIdeal.HostRead

open Cert.KernelIdeal Cert.KernelIdeal.Gen Cert.KernelIdeal.Aggregate
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## A typed reference's transport of contents is the identity -/

/-- Contents carried to a buffer's own type and back are the contents. -/
theorem ofBuf_toBuf {T : BufTy} (x : TRef sig T) (v : T.Contents (Elt F)) : x.ofBuf (x.toBuf v) = v := by
  obtain ⟨ref, h, od, us⟩ := x
  cases h
  rfl

theorem ofBuf_src (h1 h2 h3) (v : IVec S1600000 32) :
    (TRef.of (T := ⟨S1600000, .i32⟩) main_arg1 h1 h2 h3).ofBuf (Val := Elt F) v = v := rfl
theorem ofBuf_table1 (h1 h2 h3) (v : FVec F S50000x128 .f32) :
    (TRef.of (T := ⟨S50000x128, .f32⟩) main_v0 h1 h2 h3).ofBuf (Val := Elt F) v = v := rfl
theorem toBuf_rows1 (h1 h2 h3) (v : FVec F S1600000x128 .f32) :
    (TRef.of (T := ⟨S1600000x128, .f32⟩) main_v1 h1 h2 h3).toBuf (Val := Elt F) v = v := rfl
theorem ofBuf_table2 (h1 h2 h3) (v : FVec F S50000x128 .f32) :
    (TRef.of (T := ⟨S50000x128, .f32⟩) main_v9 h1 h2 h3).ofBuf (Val := Elt F) v = v := rfl
theorem toBuf_rows2 (h1 h2 h3) (v : FVec F S1600000x128 .f32) :
    (TRef.of (T := ⟨S1600000x128, .f32⟩) main_v10 h1 h2 h3).toBuf (Val := Elt F) v = v := rfl

/-! ## Before the second region -/

/-- The table the second region reads is the aggregation of the table the first region wrote. -/
theorem entry1_table (c : Dev nD) : W3 m ρ c (Proc.devRef .tc main_v7)
    = aggregate (W1 m ρ c (Proc.devRef .tc main_v0)) (W1 m ρ c (Proc.devRef .tc main_arg1))
        (W1 m ρ c (Proc.devRef .tc main_arg2)) (W1 m ρ c (Proc.devRef .tc main_arg3)) := by
  show StableHlo.after hostOps1_1 (StableHlo.after hostOps1 (W1 m ρ c)) (Proc.devRef .tc main_v7) = _
  after_results_simp
  simp only [ofBuf_toBuf, ofBuf_src, ofBuf_table1, toBuf_rows1]
  rfl

/-- The bias row the second region reads is the first bias vector laid out as one row. -/
theorem entry1_bias (c : Dev nD) : W3 m ρ c (Proc.devRef .tc main_v8) = biasRow (W1 m ρ c (Proc.devRef .tc main_arg5)) := by
  show StableHlo.after hostOps1_1 (StableHlo.after hostOps1 (W1 m ρ c)) (Proc.devRef .tc main_v8) = _
  after_results_simp
  rfl

/-- No host operation before the second region writes an argument array. -/
theorem entry1_arg (c : Dev nD) (b : Ref sig .tc)
    (hb : b = main_arg1 ∨ b = main_arg2 ∨ b = main_arg3 ∨ b = main_arg6 ∨ b = main_arg7) :
    W3 m ρ c (Proc.devRef .tc b) = W1 m ρ c (Proc.devRef .tc b) := by
  show StableHlo.after hostOps1_1 (StableHlo.after hostOps1 (W1 m ρ c)) (Proc.devRef .tc b) = _
  rcases hb with rfl | rfl | rfl | rfl | rfl <;> after_results_simp

/-- The first region writes its result only: an argument array it does not write holds its launch contents after it. -/
theorem exit0_arg (c : Dev nD) (b : Ref sig .tc) (hb : ∀ w, Pipeline.arrRef spec0 w ≠ b) :
    W1 m ρ c (Proc.devRef .tc b) = m ((c : Thread nD τ).loc b) :=
  W1_of_ne m ρ c b hb

/-! ## Before the third region -/

/-- The table the third region reads is the aggregation of the table the second region wrote. -/
theorem entry2_table (c : Dev nD) : W6 m ρ c (Proc.devRef .tc main_v16)
    = aggregate (W4 m ρ c (Proc.devRef .tc main_v9)) (W4 m ρ c (Proc.devRef .tc main_arg1))
        (W4 m ρ c (Proc.devRef .tc main_arg2)) (W4 m ρ c (Proc.devRef .tc main_arg3)) := by
  show StableHlo.after hostOps2_1 (StableHlo.after hostOps2 (W4 m ρ c)) (Proc.devRef .tc main_v16) = _
  after_results_simp
  simp only [ofBuf_toBuf, ofBuf_src, ofBuf_table2, toBuf_rows2]
  rfl

/-- The bias row the third region reads is the second bias vector laid out as one row. -/
theorem entry2_bias (c : Dev nD) : W6 m ρ c (Proc.devRef .tc main_v17) = biasRow (W4 m ρ c (Proc.devRef .tc main_arg7)) := by
  show StableHlo.after hostOps2_1 (StableHlo.after hostOps2 (W4 m ρ c)) (Proc.devRef .tc main_v17) = _
  after_results_simp
  rfl

/-- The second region writes its result only. -/
theorem exit1_arg (c : Dev nD) (b : Ref sig .tc) (hb : ∀ w, Pipeline.arrRef spec1 w ≠ b) :
    W4 m ρ c (Proc.devRef .tc b) = W3 m ρ c (Proc.devRef .tc b) :=
  W4_of_ne m ρ c b hb

end Cert.KernelIdeal.HostRead

end
-- ==== Proof.TakeMask.lean ====
/-
  Under the precondition every edge's source index s satisfies -50000 <= s < 50000. Counted from the end when negative,
  it then lies in 0 .. 49999, inside the table: the lookup's range test holds at every edge, and the lookup with a fill
  value is the plain row lookup.
-/
import proofs.«401374_j40312563040379_2_alg».proof.Proof.Aggregate
import proofs.«401374_j40312563040379_2_alg».proof.Proof.Gen.Pre_finite_inputs
import proofs.«401374_j40312563040379_2_alg».proof.Defs
import Idealize.ShloMosaic.PureOps.Ideal
import Idealize.ShloMosaic.Lib.ReduceAll
import Idealize.ShloMosaic.Lib.StableHlo.Predicate

noncomputable section

namespace Cert.KernelIdeal.TakeMask

open Cert.KernelIdeal Cert.KernelIdeal.Gen Cert.KernelIdeal.Aggregate Idealize.ShloMosaic Idealize.SL.Sem

/-! ## The words of the bounds, read signed -/

private theorem toInt_lo : (4294917296#32 : BitVec 32).toInt = -50000 := by decide
private theorem toInt_hi : (50000#32 : BitVec 32).toInt = 50000 := by decide
private theorem toInt_zero : (0#32 : BitVec 32).toInt = 0 := by decide
private theorem toInt_last : (49999#32 : BitVec 32).toInt = 49999 := by decide

/-- A shape of rank 0 has one index. -/
private instance : Subsingleton (⟨0, ![]⟩ : Shape).Idx := ⟨fun _ _ => funext fun d => d.elim0⟩

/-- The precondition bounds every edge's source index: at least -50000 and below 50000, as signed words. -/
theorem src_in_range (m : (ℓ : Loc nD τ sig) → Buf (Elt Ideal) ℓ) (hpre : Cert.Pre_KernelIdeal m) (c : Dev nD) (e : S1600000.Idx) :
    (-50000 : Int) ≤ ((m ((c.tc : Thread nD τ).loc main_arg1) : IVec S1600000 32) e).toInt
      ∧ ((m ((c.tc : Thread nD τ).loc main_arg1) : IVec S1600000 32) e).toInt < 50000 := by
  -- the predicate's one word is 1; it is the conjunction of the tests on each argument, the last being the test on the source indices
  have h := congrFun (hpre c) (fun a => a.elim0)
  dsimp only [Cert.Pre_finite_inputs.fn, Cert.Pre_finite_inputs.fn_part1, Cert.Pre_finite_inputs.fn_part2] at h
  have h34 := (IntOp.andi_eq_one.1 h).2
  -- a conjunction over all edges that is 1 is 1 at each edge
  have he := Host.reduce_andi_all _ _ _ _ _ h34 e
  obtain ⟨hge, hlt⟩ := IntOp.andi_eq_one.1 he
  have hge' := IntOp.cmpi_sge.1 hge
  have hlt' := IntOp.cmpi_slt.1 hlt
  refine ⟨?_, ?_⟩
  · rw [← toInt_lo]; exact hge'
  · rw [← toInt_hi]; exact hlt'

/-! ## The range test at one edge -/

/-- A left fold by `and` from 1 over words that are all 1 is 1. -/
private theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all_one f hf l

/-- A word s with -50000 <= s < 50000, moved up by 50000 when negative, lies in 0 .. 49999. -/
private theorem wrap_in_table (s : BitVec 32) (h1 : (-50000 : Int) ≤ s.toInt) (h2 : s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  rw [IntOp.andi_eq_one, IntOp.cmpi_sge, IntOp.cmpi_sle, toInt_zero, toInt_last]
  by_cases hneg : IntOp.cmpi .slt s 0#32 = 1#1
  · -- s < 0: the word is s + 50000, and the sum does not wrap
    have hs := IntOp.cmpi_slt.1 hneg
    rw [toInt_zero] at hs
    rw [hneg, show ∀ a b : BitVec 32, Scalar.select 1#1 a b = a from fun _ _ => if_pos rfl,
      IntOp.addi, BitVec.toInt_add, toInt_hi, Int.bmod_def]
    split <;> omega
  · -- 0 <= s: the word is s
    have hs : ¬ s.toInt < 0 := fun h => hneg (IntOp.cmpi_slt.2 (by rw [toInt_zero]; exact h))
    rw [show ∀ a b : BitVec 32, Scalar.select (IntOp.cmpi .slt s 0#32) a b = b from fun _ _ => if_neg hneg]
    omega

/-- With every source index in [-50000, 50000) the range test is 1 at every edge. -/
theorem inRange_eq_one (src : IVec S1600000 32)
    (hsrc : ∀ e : S1600000.Idx, (-50000 : Int) ≤ (src e).toInt ∧ (src e).toInt < 50000) (e : S1600000.Idx) :
    inRange src e = 1#1 := by
  unfold inRange
  rw [Host.reduce_eq_foldl]
  refine foldl_andi_all_one _ (fun i => ?_) _
  exact wrap_in_table (src _) (hsrc _).1 (hsrc _).2

/-- With every source index in that range the range test passes at every edge, so the lookup never fills. -/
theorem takeFill_eq_rows (s : FVec Ideal S50000x128 .f32) (src : IVec S1600000 32)
    (hsrc : ∀ e : S1600000.Idx, (-50000 : Int) ≤ (src e).toInt ∧ (src e).toInt < 50000) :
    takeFill (F := Ideal) s src = rows (F := Ideal) s src := by
  funext i
  unfold takeFill
  have hm : broadcastInDim S1600000x128 ![0] bcast_S1600000_S1600000x128_0 (inRange src) i = 1#1 :=
    inRange_eq_one src hsrc _
  show Scalar.select (broadcastInDim S1600000x128 ![0] bcast_S1600000_S1600000x128_0 (inRange src) i) _ _ = _
  rw [hm]
  exact if_pos rfl

end Cert.KernelIdeal.TakeMask

end
-- ==== Proof.KernelValue.lean ====
/-
  The kernel program's result as one function of its arguments, on the extended reals. Reading the run backwards: the
  third region adds the second bias row to the table it finds, which is the aggregation of what the second region
  wrote; the second region wrote the hidden layer's projection of the table it found, the aggregation of what the first
  region wrote; and the first region wrote the projection of the node features. Under the precondition every edge's
  source index lies inside the table, so each aggregation's row lookup never takes its fill value.
-/
import proofs.«401374_j40312563040379_2_alg».proof.Proof.Region0
import proofs.«401374_j40312563040379_2_alg».proof.Proof.Region1
import proofs.«401374_j40312563040379_2_alg».proof.Proof.Region2
import proofs.«401374_j40312563040379_2_alg».proof.Proof.HostRead
import proofs.«401374_j40312563040379_2_alg».proof.Proof.TakeMask

set_option maxRecDepth 16384

noncomputable section

namespace Cert.KernelIdeal.KernelValue

open Cert.KernelIdeal Cert.KernelIdeal.Gen Cert.KernelIdeal.Aggregate Cert.KernelIdeal.HostRead
open Idealize.ShloMosaic Idealize.ShloMosaic.TcCoe Idealize.SL.Sem

variable (m : (ℓ : Loc nD τ sig) → Buf (Elt Ideal) ℓ) (ρ : Dev nD → PrngReg)

/-- With every source index inside the table the aggregation is the plain lookup, scaled and scatter-added. -/
theorem aggregate_eq (s : FVec Ideal S50000x128 .f32) (src dst : IVec S1600000 32) (w : FVec Ideal S1600000 .f32)
    (hsrc : ∀ e : S1600000.Idx, (-50000 : Int) ≤ (src e).toInt ∧ (src e).toInt < 50000) :
    aggregate (F := Ideal) s src dst w = scatterRows (F := Ideal) dst w (rows (F := Ideal) s src) := by
  unfold aggregate
  rw [TakeMask.takeFill_eq_rows s src hsrc]

/-- The two-layer graph convolution of the arguments: what both programs end holding. -/
def twoLayer (x0 : FVec Ideal S50000x128 .f32) (x1 x2 : IVec S1600000 32) (x3 : FVec Ideal S1600000 .f32)
    (x4 : FVec Ideal S128x128 .f32) (x5 : FVec Ideal S128 .f32) (x6 : FVec Ideal S128x128 .f32) (x7 : FVec Ideal S128 .f32) :
    FVec Ideal S50000x128 .f32 :=
  Cert.Gcn.addBias (scatterRows (F := Ideal) x2 x3 (rows (F := Ideal)
    (Cert.Gcn.hidden (scatterRows (F := Ideal) x2 x3 (rows (F := Ideal) (Cert.Gcn.proj x0 x4) x1)) (biasRow (F := Ideal) x5) x6) x1))
    (biasRow (F := Ideal) x7)

/-! ## The argument arrays at each region's entry are the launch contents -/

theorem at1_src (c : Dev nD) : W1 m ρ c (Proc.devRef .tc main_arg1) = m ((c : Thread nD τ).loc main_arg1) := exit0_arg m ρ c main_arg1 (by decide)
theorem at1_dst (c : Dev nD) : W1 m ρ c (Proc.devRef .tc main_arg2) = m ((c : Thread nD τ).loc main_arg2) := exit0_arg m ρ c main_arg2 (by decide)
theorem at1_weight (c : Dev nD) : W1 m ρ c (Proc.devRef .tc main_arg3) = m ((c : Thread nD τ).loc main_arg3) := exit0_arg m ρ c main_arg3 (by decide)
theorem at1_bias1 (c : Dev nD) : W1 m ρ c (Proc.devRef .tc main_arg5) = m ((c : Thread nD τ).loc main_arg5) := exit0_arg m ρ c main_arg5 (by decide)
theorem at1_w2 (c : Dev nD) : W1 m ρ c (Proc.devRef .tc main_arg6) = m ((c : Thread nD τ).loc main_arg6) := exit0_arg m ρ c main_arg6 (by decide)
theorem at1_bias2 (c : Dev nD) : W1 m ρ c (Proc.devRef .tc main_arg7) = m ((c : Thread nD τ).loc main_arg7) := exit0_arg m ρ c main_arg7 (by decide)

theorem at4_src (c : Dev nD) : W4 m ρ c (Proc.devRef .tc main_arg1) = m ((c : Thread nD τ).loc main_arg1) :=
  (exit1_arg m ρ c main_arg1 (by decide)).trans ((entry1_arg m ρ c main_arg1 (.inl rfl)).trans (at1_src m ρ c))
theorem at4_dst (c : Dev nD) : W4 m ρ c (Proc.devRef .tc main_arg2) = m ((c : Thread nD τ).loc main_arg2) :=
  (exit1_arg m ρ c main_arg2 (by decide)).trans ((entry1_arg m ρ c main_arg2 (.inr (.inl rfl))).trans (at1_dst m ρ c))
theorem at4_weight (c : Dev nD) : W4 m ρ c (Proc.devRef .tc main_arg3) = m ((c : Thread nD τ).loc main_arg3) :=
  (exit1_arg m ρ c main_arg3 (by decide)).trans ((entry1_arg m ρ c main_arg3 (.inr (.inr (.inl rfl)))).trans (at1_weight m ρ c))
theorem at4_bias2 (c : Dev nD) : W4 m ρ c (Proc.devRef .tc main_arg7) = m ((c : Thread nD τ).loc main_arg7) :=
  (exit1_arg m ρ c main_arg7 (by decide)).trans ((entry1_arg m ρ c main_arg7 (.inr (.inr (.inr (.inr rfl))))).trans (at1_bias2 m ρ c))

/-! ## The tables between the regions -/

/-- After the first region its result array holds the projection of the node features. -/
theorem table1 (c : Dev nD) : W1 m ρ c (Proc.devRef .tc main_v0)
    = Cert.Gcn.proj (m ((c : Thread nD τ).loc main_arg0)) (m ((c : Thread nD τ).loc main_arg4)) :=
  (W1_arr m ρ c 2).trans (Region0.final (V0 m ρ) c)

/-- After the second region its result array holds the hidden layer's projection of the table it found. -/
theorem table2 (c : Dev nD) : W4 m ρ c (Proc.devRef .tc main_v9)
    = Cert.Gcn.hidden (W3 m ρ c (Proc.devRef .tc main_v7)) (W3 m ρ c (Proc.devRef .tc main_v8)) (W3 m ρ c (Proc.devRef .tc main_arg6)) :=
  (W4_arr m ρ c 3).trans (Region1.final (V3 m ρ) c)

/-- After the third region its result array holds the table it found with the bias row added. -/
theorem table3 (c : Dev nD) : W7 m ρ c (Proc.devRef .tc main_v18)
    = Cert.Gcn.addBias (W6 m ρ c (Proc.devRef .tc main_v16)) (W6 m ρ c (Proc.devRef .tc main_v17)) :=
  (W7_arr m ρ c 2).trans (Region2.final (V6 m ρ) c)

/-- THE RESULT: under the precondition the kernel program's result array ends at the two-layer graph convolution of
    its arguments. -/
theorem result_value (hpre : Cert.Pre_KernelIdeal m) (c : Dev nD) :
    W7 m ρ c (Proc.devRef .tc main_v18)
      = twoLayer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have hsrc := TakeMask.src_in_range m hpre c
  rw [table3, entry2_table, entry2_bias, at4_src, at4_dst, at4_weight, at4_bias2, table2, entry1_table, entry1_bias,
    entry1_arg m ρ c main_arg6 (.inr (.inr (.inr (.inl rfl)))), at1_src, at1_dst, at1_weight, at1_bias1, at1_w2, table1]
  rw [aggregate_eq _ _ _ _ hsrc, aggregate_eq _ _ _ _ hsrc]
  rfl

end Cert.KernelIdeal.KernelValue

end
-- ==== Proof.RefSpec.lean ====
/-
  The reference program's result as the same functions of its arguments as the kernel's. Its two dense products are the
  projection read entry by entry (a sum over the contracted index); its bias additions broadcast the bias vector along
  the rows, which reads the same entries as adding the bias laid out as one row; its clamp at zero is the maximum with
  zero; and between the dense stages it applies the row lookup, the scaling and the scatter-add to the same operands.
-/
import proofs.«401374_j40312563040379_2_alg».proof.Proof.Gen.ReferenceIdeal.Read
import proofs.«401374_j40312563040379_2_alg».proof.Proof.Aggregate
import proofs.«401374_j40312563040379_2_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Idealize.ShloMosaic Idealize.ShloMosaic.ValueIdx
open Cert.KernelIdeal.Aggregate (rows scatterRows biasRow)

/-- The host's matrix product is the projection: entry (n, j) sums table (n, k) times weight (k, j) over k. -/
theorem dot_eq_proj (x : FVec Ideal S50000x128 .f32) (w : FVec Ideal S128x128 .f32) :
    Host.dotGeneral dot_S50000x128_S128x128_S50000x128_1_0_0_1_n_n none x w = Cert.Gcn.proj x w := by
  funext i
  have h := Read.val_main_v0_apply x w i
  unfold Read.val_main_v0 at h
  rw [h]
  unfold Cert.Gcn.proj
  refine Finset.sum_congr rfl fun k _ => ?_
  have e1 : Read.lidx_main_v0 i k = ix2 (i 0) k := funext fun a => by
    match a with
    | ⟨0, _⟩ => rfl
    | ⟨1, _⟩ => rfl
  have e2 : Read.ridx_main_v0 i k = ix2 k (i 1) := funext fun a => by
    match a with
    | ⟨0, _⟩ => rfl
    | ⟨1, _⟩ => rfl
  exact congrArg₂ (fun a b => x a * w b) e1 e2

/-- The bias vector broadcast along the rows reads, at (n, j), entry j of the vector; so does the bias laid out as one row, at (0, j). -/
theorem bcast_bias_apply (b : FVec Ideal S128 .f32) (i : S50000x128.Idx) :
    broadcastInDim S50000x128 ![0, 1] bcast_S1x128_S50000x128_0_1 (broadcastInDim S1x128 ![1] bcast_S128_S1x128_1 b) i
      = biasRow (F := Ideal) b (ix2 (0 : Fin 1) (i 1)) := by
  have h1 := Read.val_main_v15_apply (F := Ideal) b i
  unfold Read.val_main_v15 at h1
  have h2 := Read.val_main_v14_apply (F := Ideal) b (Read.idx_main_v15 i)
  unfold Read.val_main_v14 at h1 h2
  rw [h1, h2]
  unfold biasRow
  symm
  refine shapeCast_apply b _ _ _ ?_
  rw [Shape.rowMajor_val_two, Shape.rowMajor_val_one]
  show (i 1).val = 0 * 128 + (i 1).val
  omega

/-- Adding the broadcast bias and clamping at zero is the biased, clamped table. -/
theorem bias_relu_eq (a : FVec Ideal S50000x128 .f32) (b : FVec Ideal S128 .f32) :
    maximumf (addf a (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = Cert.Gcn.biasRelu a (biasRow (F := Ideal) b) := by
  funext i
  show max (a i + _) (broadcastInDim S50000x128 ![] bcast_S_S50000x128 (constant (F := Ideal) S_ .f32 0x00000000#32) i) = _
  rw [bcast_bias_apply]
  have hz : broadcastInDim S50000x128 ![] bcast_S_S50000x128 (constant (F := Ideal) S_ .f32 0x00000000#32) i = 0 := by
    rw [broadcastInDim_apply _ bcast_S_S50000x128 _ i (fun a => a.elim0) (fun a => a.elim0)]
    exact Ideal.ofBits_zero_f32
  rw [hz]
  rfl

/-- Adding the broadcast bias is adding the bias row to every row. -/
theorem add_bias_eq (a : FVec Ideal S50000x128 .f32) (b : FVec Ideal S128 .f32) :
    addf a (broadcastInDim S50000x128 ![0, 1] bcast_S1x128_S50000x128_0_1 (broadcastInDim S1x128 ![1] bcast_S128_S1x128_1 b))
      = Cert.Gcn.addBias a (biasRow (F := Ideal) b) := by
  funext i
  show a i + _ = _
  rw [bcast_bias_apply]
  rfl

/-- The reference's lookup, scaling and scatter-add are the kernel program's, applied to the same operands. -/
theorem agg_eq (s : FVec Ideal S50000x128 .f32) (src dst : IVec S1600000 32) (w : FVec Ideal S1600000 .f32) :
    Host.scatterAdd scatter_S50000x128_S1600000x1_S1600000x128_1_0_0_1
        (broadcastInDim S50000x128 ![] bcast_S_S50000x128 (constant S_ .f32 0x00000000#32))
        (broadcastInDim S1600000x1 ![0] bcast_S1600000_S1600000x1_0 dst)
        (mulf (Host.gather gather_S50000x128_S1600000x1_S1600000x128_1_0_n_n_0_1_1128 s
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 50000#32))) src)))
          (broadcastInDim S1600000x128 ![0, 1] bcast_S1600000x1_S1600000x128_0_1
            (broadcastInDim S1600000x1 ![0] bcast_S1600000_S1600000x1_0 w)))
      = scatterRows (F := Ideal) dst w (rows (F := Ideal) s src) := rfl

/-- The reference's result: the output layer's bias added to the aggregation of the hidden layer's projection of the
    aggregation of the first projection. -/
theorem result_eq (x0 : FVec Ideal S50000x128 .f32) (x1 x2 : IVec S1600000 32) (x3 : FVec Ideal S1600000 .f32)
    (x4 : FVec Ideal S128x128 .f32) (x5 : FVec Ideal S128 .f32) (x6 : FVec Ideal S128x128 .f32) (x7 : FVec Ideal S128 .f32) :
    Read.val_main_v34 (F := Ideal) x0 x1 x2 x3 x4 x5 x6 x7
      = Cert.Gcn.addBias (scatterRows (F := Ideal) x2 x3 (rows (F := Ideal)
          (Cert.Gcn.hidden (scatterRows (F := Ideal) x2 x3 (rows (F := Ideal) (Cert.Gcn.proj x0 x4) x1)) (biasRow (F := Ideal) x5) x6) x1))
          (biasRow (F := Ideal) x7) := by
  rw [← Read.val_main_v34_eq]
  rw [add_bias_eq, agg_eq, dot_eq_proj, bias_relu_eq, agg_eq, dot_eq_proj]
  rfl

end Cert.ReferenceIdeal.RefSpec

end
-- ==== Proof.lean ====
/-
  The certificate of a two-layer graph convolution: a kernel program of three pallas regions (a dense projection, a
  fused bias + clamp + projection, a bias addition) with the sparse aggregation done by host operations between them,
  against a reference that does everything by host operations.

  On the extended reals both programs compute
      out = A (relu (A (X W1) + b1) W2) + b2,
  where X W is the dense projection (entry (n, j) sums X (n, k) W (k, j) over k) and A is the aggregation: each edge reads
  the row of its source node, scales it by the edge's weight, and the rows are added into their destination nodes' rows
  of a zero table. The narrowing of the projection's operands is the identity on the extended reals and the block-wise
  products tile the whole product, so no law beyond re-indexing the sums is needed, and finiteness is not used.
  The two programs differ in one place: the kernel's row lookup yields a fill value for a source index outside the
  table, where the reference's lookup clamps the index into the table. The precondition keeps every source index in
  -50000 .. 49999 (an index counted from the end when negative), where both look up the same row.

  The frames of the two kernel programs are the generated ones; the reference's frame is its generated run with the result
  dropped; the idealization rewrote nothing.
-/
import proofs.«401374_j40312563040379_2_alg».proof.Defs
import proofs.«401374_j40312563040379_2_alg».proof.Proof.Gen.Kernel
import proofs.«401374_j40312563040379_2_alg».proof.Proof.Gen.Kernel.Frame
import proofs.«401374_j40312563040379_2_alg».proof.Proof.Gen.KernelIdeal
import proofs.«401374_j40312563040379_2_alg».proof.Proof.Gen.KernelIdeal.Frame
import proofs.«401374_j40312563040379_2_alg».proof.Proof.Gen.ReferenceIdeal
import proofs.«401374_j40312563040379_2_alg».proof.Proof.Gen.Pre_finite_inputs
import proofs.«401374_j40312563040379_2_alg».proof.Proof.Gen.ReferenceIdeal.Run
import proofs.«401374_j40312563040379_2_alg».proof.Proof.Gen.ReferenceIdeal.Read
import proofs.«401374_j40312563040379_2_alg».proof.Proof.KernelRun
import proofs.«401374_j40312563040379_2_alg».proof.Proof.KernelValue
import proofs.«401374_j40312563040379_2_alg».proof.Proof.RefSpec
import Idealize.ShloMosaic.Adequacy
import Idealize.ShloMosaic.Init

noncomputable section

namespace Cert.Proof.GcnClaims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the two-layer graph convolution of the arguments in
    their result arrays: the kernel program by reading its run backwards through the three regions, the reference by
    reading its operations as the same functions. -/
theorem algebraic : Cert.algebraic_KernelIdeal_ReferenceIdeal := by
  intro m ρ m' ρ' hpre hagree
  refine ⟨fun c => Cert.KernelIdeal.KernelValue.twoLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_value m ρ hpre c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.RefSpec.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl

end Cert.Proof.GcnClaims

namespace Cert.Proof

theorem claim : Cert.Claim :=
  ⟨Cert.Kernel.Gen.facts, Cert.KernelIdeal.Gen.facts, Cert.ReferenceIdeal.Gen.facts, Cert.Pre_finite_inputs.Gen.facts,
    GcnClaims.frame_kernel, GcnClaims.frame_kernel_ideal, GcnClaims.frame_reference, GcnClaims.preserves, GcnClaims.algebraic⟩

end Cert.Proof

end
